-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S1024 : Shape := ⟨1, ![1024]⟩
abbrev S2x4096x8192 : Shape := ⟨3, ![2, 4096, 8192]⟩
abbrev S2x4096 : Shape := ⟨2, ![2, 4096]⟩
abbrev S2x1024x8192 : Shape := ⟨3, ![2, 1024, 8192]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : IVec S2x4096x8192 32) (main_arg2 : IVec S2x4096 32) (main_arg3 : IVec S2x1024x8192 32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 4096#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Kernel.lean ====
abbrev S1024 : Shape := ⟨1, ![1024]⟩
abbrev S2x4096x8192 : Shape := ⟨3, ![2, 4096, 8192]⟩
abbrev S2x4096 : Shape := ⟨2, ![2, 4096]⟩
abbrev S2x1024x8192 : Shape := ⟨3, ![2, 1024, 8192]⟩
abbrev S2x4096x64x128 : Shape := ⟨4, ![2, 4096, 64, 128]⟩
abbrev S2x1024x64x128 : Shape := ⟨4, ![2, 1024, 64, 128]⟩
abbrev S1x1x64x128 : Shape := ⟨4, ![1, 1, 64, 128]⟩
abbrev S1 : Shape := ⟨1, ![1]⟩
abbrev S1x1 : Shape := ⟨2, ![1, 1]⟩

abbrev nBuf : Space → Nat
  | .hbm => 6
  | .vmem => 6
  | .smem => 2
  | _ => 0

abbrev bufTy : (tb : Table) → Fin (tcTables nBuf tb) → BufTy
  | .hbm, ⟨0, _⟩ => ⟨S2x4096x8192, .i32⟩
  | .hbm, ⟨1, _⟩ => ⟨S2x1024x8192, .i32⟩
  | .hbm, ⟨2, _⟩ => ⟨S2x4096x64x128, .i32⟩
  | .hbm, ⟨3, _⟩ => ⟨S2x1024x64x128, .i32⟩
  | .hbm, ⟨4, _⟩ => ⟨S2x1024x64x128, .i32⟩
  | .hbm, ⟨5, _⟩ => ⟨S2x1024x8192, .i32⟩
  | .local _ .vmem, ⟨0, _⟩ => ⟨S1x1x64x128, .i32⟩
  | .local _ .vmem, ⟨1, _⟩ => ⟨S1x1x64x128, .i32⟩
  | .local _ .vmem, ⟨2, _⟩ => ⟨S1x1x64x128, .i32⟩
  | .local _ .vmem, ⟨3, _⟩ => ⟨S1x1x64x128, .i32⟩
  | .local _ .vmem, ⟨4, _⟩ => ⟨S1x1x64x128, .i32⟩
  | .local _ .vmem, ⟨5, _⟩ => ⟨S1x1x64x128, .i32⟩
  | .local _ .smem, ⟨0, _⟩ => ⟨S1024, .i32⟩
  | .local _ .smem, ⟨1, _⟩ => ⟨S2x4096, .i32⟩
  | _, _ => ⟨S2x4096x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg3 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 1024], ![false, false]⟩

abbrev pre0 : Pipeline.Prefetch sig := ⟨2, ![main_arg0.idx, main_arg2.idx], fun | 0 => main_arg0.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (v1 : BitVec 32) : Fin 2 → Nat :=
  let arg0 : BitVec 32 := BitVec.ofNat 32 (i 0).val
  let v2 : Index := Scalar.indexCast arg0
  let v3 : Index := Scalar.indexCast v1
  ![v2.toNat, v3.toNat]

def k0_chk1 (i : grid0.Coords) (v1 : BitVec 32) : Prop :=
  (∀ a, (k0_off2 i v1) a + S1x1.size a ≤ S2x4096.size a)
instance k0_chk1.dec : ∀ (i : grid0.Coords) (v1 : BitVec 32), Decidable (k0_chk1 i v1) := fun i v1 => decidable_of_iff' _ (Iff.of_eq (k0_chk1.eq_1 i v1))
theorem k0_off2_inb : ∀ (i : grid0.Coords) (v1 : BitVec 32) (k0_hw1 : k0_chk1 i v1), ∀ a, (k0_off2 i v1) a + S1x1.size a ≤ S2x4096.size a := fun i v1 k0_hw1 => k0_hw1

def cc0_transform_0 (k0_off1_inb : ∀ i : grid0.Coords, ∀ a, (k0_off1 i) a + S1.size a ≤ S1024.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S1024) ![v0.toNat] S1.size (k0_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x4096x8192_S2x4096x64x128 : S2x4096x8192.ShapeCasts S2x4096x64x128
  shapeCasts_S2x1024x8192_S2x1024x64x128 : S2x1024x8192.ShapeCasts S2x1024x64x128
  numel1_S1 : S1.numel = 1
  numel1_S1x1 : S1x1.numel = 1
  iota_S1x1x64x128_d2_w32 : S1x1x64x128.Iotas .tc 32 [2]
  iota_S1x1x64x128_d3_w32 : S1x1x64x128.Iotas .tc 32 [3]
  inb_S1x1x64x128_S1x1x64x128_0_0_0_0 : ∀ a, (![0, 0, 0, 0] : Fin 4 → Nat) a + S1x1x64x128.size a ≤ S1x1x64x128.size a
  h_S1x1x64x128 : 0 < S1x1x64x128.numel
  shapeCasts_S1x1x64x128_S1x1x64x128 : S1x1x64x128.ShapeCasts S1x1x64x128
  shapeCasts_S2x1024x64x128_S2x1024x8192 : S2x1024x64x128.ShapeCasts S2x1024x8192
  hrank0 : 0 < grid0.rank
  k0_off1_inb : ∀ i : grid0.Coords, ∀ a, (k0_off1 i) a + S1.size a ≤ S1024.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x128.size a ≤ S2x1024x64x128.size a
  hwx0_1 : ∀ i : grid0.Coords, EltTy.bits .i32 = 32 ∨ (Rect.block (s := S2x1024x64x128) S1x1x64x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x128.size a ≤ S2x1024x64x128.size a
  hwx0_2 : ∀ i : grid0.Coords, EltTy.bits .i32 = 32 ∨ (Rect.block (s := S2x1024x64x128) S1x1x64x128.size (cc0_transform_2 i) (hinb0_2 i)).WholeWords (EltTy.packing .i32)

variable [Facts₀]

abbrev spec0_0 : Pipeline.WinSpec sig grid0.rank :=
  Pipeline.WinSpec.ofSpec (Memref.whole main_v0) S1x1x64x128.size reads0_0 false false 2 stage0_0 sem0_0 nbuf0_0 hstage0_0

abbrev spec0_1 : Pipeline.WinSpec sig grid0.rank :=
  Pipeline.WinSpec.ofSpec (Memref.whole main_v1) S1x1x64x128.size reads0_1 false false 2 stage0_1 sem0_1 nbuf0_1 hstage0_1

abbrev spec0_2 : Pipeline.WinSpec sig grid0.rank :=
  Pipeline.WinSpec.ofSpec (Memref.whole main_v2) S1x1x64x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x64x128.size a ≤ S2x4096x64x128.size a), EltTy.bits .i32 = 32 ∨ (Rect.block (s := S2x4096x64x128) S1x1x64x128.size (cc0_transform_0 k0_off1_inb numel1_S1 pf i) h).WholeWords (EltTy.packing .i32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S1024 : Shape := ⟨1, ![1024]⟩
abbrev S2x4096x8192 : Shape := ⟨3, ![2, 4096, 8192]⟩
abbrev S2x4096 : Shape := ⟨2, ![2, 4096]⟩
abbrev S2x1024x8192 : Shape := ⟨3, ![2, 1024, 8192]⟩
abbrev S_ : Shape := ⟨0, ![]⟩
abbrev S1024x1 : Shape := ⟨2, ![1024, 1]⟩
abbrev S2x1024 : Shape := ⟨2, ![2, 1024]⟩
abbrev S2x1024x1 : Shape := ⟨3, ![2, 1024, 1]⟩
abbrev S8192 : Shape := ⟨1, ![8192]⟩
abbrev S1x1x8192 : Shape := ⟨3, ![1, 1, 8192]⟩

abbrev nBuf : Space → Nat
  | .hbm => 29
  | .vmem => 0
  | .smem => 0
  | _ => 0

abbrev bufTy : (tb : Table) → Fin (tcTables nBuf tb) → BufTy
  | .hbm, ⟨0, _⟩ => ⟨S1024, .i32⟩
  | .hbm, ⟨1, _⟩ => ⟨S2x4096x8192, .i32⟩
  | .hbm, ⟨2, _⟩ => ⟨S2x4096, .i32⟩
  | .hbm, ⟨3, _⟩ => ⟨S2x1024x8192, .i32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S2x1024x8192, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1024x1, .i32⟩
  | .hbm, ⟨21, _⟩ => ⟨S2x1024, .i32⟩
  | .hbm, ⟨22, _⟩ => ⟨S2x1024x1, .i32⟩
  | .hbm, ⟨23, _⟩ => ⟨S8192, .i32⟩
  | .hbm, ⟨24, _⟩ => ⟨S1x1x8192, .i32⟩
  | .hbm, ⟨25, _⟩ => ⟨S2x1024x8192, .i32⟩
  | .hbm, ⟨26, _⟩ => ⟨S2x1024x8192, .i32⟩
  | .hbm, ⟨27, _⟩ => ⟨S2x1024x8192, .i1⟩
  | .hbm, ⟨28, _⟩ => ⟨S2x1024x8192, .i32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S2x1024_S2x1024x1_0_1 : S2x1024.BroadcastsInDim S2x1024x1 (![0, 1] : Fin 2 → Fin S2x1024x1.rank)
  bcast_S8192_S1x1x8192_2 : S8192.BroadcastsInDim S1x1x8192 (![2] : Fin 1 → Fin S1x1x8192.rank)
  bcast_S1x1x8192_S2x1024x8192_0_1_2 : S1x1x8192.BroadcastsInDim S2x1024x8192 (![0, 1, 2] : Fin 3 → Fin S2x1024x8192.rank)
  bcast_S2x1024x1_S2x1024x8192_0_1_2 : S2x1024x1.BroadcastsInDim S2x1024x8192 (![0, 1, 2] : Fin 3 → Fin S2x1024x8192.rank)
  gather_S2x4096x8192_S1024x1_S2x1024x8192_02_1_n_n_1_1_218192_wf : GatherDims.WF S2x4096x8192 S1024x1 S2x1024x8192 [0, 2] [1] [] [1] [] 1 ![2, 1, 8192]
  gather_S2x4096_S1024x1_S2x1024_0_1_n_n_1_1_21_wf : GatherDims.WF S2x4096 S1024x1 S2x1024 [0] [1] [] [1] [] 1 ![2, 1]

variable [Facts₀]

def gather_S2x4096x8192_S1024x1_S2x1024x8192_02_1_n_n_1_1_218192 : GatherDims S2x4096x8192 S1024x1 S2x1024x8192 where
  offsetDims := [0, 2]
  collapsedSliceDims := [1]
  operandBatchingDims := []
  startIndicesBatchingDims := []
  startIndexMap := [1]
  indexVectorDim := 1
  sliceSizes := ![2, 1, 8192]
  wf := gather_S2x4096x8192_S1024x1_S2x1024x8192_02_1_n_n_1_1_218192_wf
def gather_S2x4096_S1024x1_S2x1024_0_1_n_n_1_1_21 : GatherDims S2x4096 S1024x1 S2x1024 where
  offsetDims := [0]
  collapsedSliceDims := [1]
  operandBatchingDims := []
  startIndicesBatchingDims := []
  startIndexMap := [1]
  indexVectorDim := 1
  sliceSizes := ![2, 1]
  wf := gather_S2x4096_S1024x1_S2x1024_0_1_n_n_1_1_21_wf

class Facts : Prop extends Facts₀ where

variable [Facts]
-- ==== Proof.IndexRange.lean ====
import proofs.«421975_j65335042507147_2_alg».proof.Pre_any_inputs
import proofs.«421975_j65335042507147_2_alg».proof.Proof.Gen.Pre_any_inputs
import Idealize.ShloMosaic.Lib.ValueIdx

/-! # The precondition, read at one index word

The precondition is the vector `(idx ≥ 0) & (idx < 4096)`, signed comparisons of each of the 1024 index words, and it
is asked to be all ones. At word `b` that says `0 ≤ idx[b] < 4096` as signed integers; such a word is below 4096
read unsigned too. -/

namespace Cert.IndexRange

open Idealize.ShloMosaic Idealize.ShloMosaic.ValueIdx

theorem ofBool_eq_one (b : Bool) : BitVec.ofBool b = 1#1 ↔ b = true := by cases b <;> decide
theorem and_one : ∀ (a b : BitVec 1), IntOp.andi a b = 1#1 ↔ a = 1#1 ∧ b = 1#1 := by decide

/-- A word signed-at-least zero is not negative. -/
theorem nonneg_of_sge {w : BitVec 32} (h : IntOp.cmpi .sge w 0#32 = 1#1) : 0 ≤ w.toInt := by
  unfold IntOp.cmpi at h
  rw [ofBool_eq_one] at h
  simp only [BitVec.sle, decide_eq_true_eq] at h
  simpa using h

/-- A word signed-below 4096 is below 4096. -/
theorem lt_of_slt {w : BitVec 32} (h : IntOp.cmpi .slt w 4096#32 = 1#1) : w.toInt < 4096 := by
  unfold IntOp.cmpi at h
  rw [ofBool_eq_one] at h
  simp only [BitVec.slt, decide_eq_true_eq] at h
  have e : (4096#32 : BitVec 32).toInt = 4096 := by decide
  omega

/-- THE PRECONDITION AT WORD `b`: the word names one of the 4096 rows. -/
theorem word_range {F : FTy → Type} [FloatOps F] (x0 : IVec Cert.Pre_any_inputs.S1024 32)
    (x1 : IVec Cert.Pre_any_inputs.S2x4096x8192 32) (x2 : IVec Cert.Pre_any_inputs.S2x4096 32)
    (x3 : IVec Cert.Pre_any_inputs.S2x1024x8192 32)
    (h : Cert.Pre_any_inputs.fn (F := F) x0 x1 x2 x3 = fun _ => 1#1) (b : Fin 1024) :
    0 ≤ (x0 (ix1 b)).toInt ∧ (x0 (ix1 b)).toInt < 4096 := by
  have e := congrFun h (ix1 b)
  unfold Cert.Pre_any_inputs.fn at e
  simp only [andi, cmpi, broadcastInDim, constantI] at e
  rw [and_one] at e
  exact ⟨nonneg_of_sge e.1, lt_of_slt e.2⟩

/-- A word in `[0, 4096)` signed is below 4096 unsigned, and reads the same both ways. -/
theorem toNat_of_range {w : BitVec 32} (h0 : 0 ≤ w.toInt) (hlt : w.toInt < 4096) : w.toNat < 4096 := by
  have h32 := w.isLt
  rw [BitVec.toInt_eq_toNat_cond] at h0 hlt
  split at h0 <;> omega

end Cert.IndexRange
-- ==== Proof.KernelSides.lean ====
import proofs.«421975_j65335042507147_2_alg».proof.Proof.Gen.Kernel.Frame
import Idealize.ShloMosaic.Lib.ValueIdx

/-! # The frame's two hypotheses from the range of the index words

The launch prefetches the index vector and the row-length table. Window 0's block at grid point `(g, b)` is
`(g, idx[b], 0, 0)` of the `[2, 4096, 64, 128]` source: it lies inside the array when `idx[b] < 4096` read unsigned
(the pipeline's side condition). The body loads the length word at `(g, idx[b])` of the `[2, 4096]` table: the
offset is in range under the same bound (the side condition the body assumes). Both are stated here from one
hypothesis on the table as the region finds it: every word of it is below 4096. -/

set_option maxRecDepth 16384

noncomputable section

namespace Cert.Kernel.Sides

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The index table the region finds is the argument as launched. -/
theorem tbl_idx : tbl m 0 = m (((0 : Dev nD) : Thread nD τ).loc main_arg0) := V_main_arg0 m 0

/-- So a bound on every word of the argument is a bound on every word of the table the region finds. -/
theorem tbl_lt (h : ∀ b : Fin 1024, (m (((0 : Dev nD) : Thread nD τ).loc main_arg0) (ix1 b)).toNat < 4096) (x : S1024.Idx) :
    (tbl m 0 x).toNat < 4096 := by
  obtain ⟨b, rfl⟩ : ∃ b : Fin 1024, x = ix1 b := ⟨x 0, eq_ix1 x⟩
  exact lt_of_eq_of_lt (congrArg BitVec.toNat (congrFun (tbl_idx m) (ix1 b))) (h b)

/-- A grid coordinate as a 32-bit word reads back as itself. -/
theorem coord0_toNat (i : grid0.Coords) : (BitVec.ofNat 32 (i 0).val).toNat = (i 0).val := by
  have h : (i 0).val < 2 := (i 0).isLt
  rw [BitVec.toNat_ofNat]; omega

/-- The pipeline's side condition: window 0's block, at the index word, inside the source. -/
theorem ok_of_range (hr : ∀ x, (tbl m 0 x).toNat < 4096) : Ok m := by
  intro i
  obtain ⟨w, hw, e⟩ : ∃ w : BitVec 32, w.toNat < 4096 ∧
      cc0_transform_0 k0_off1_inb numel1_S1 (tbl m) i = ![(BitVec.ofNat 32 (i 0).val).toNat, w.toNat, 0, 0] :=
    ⟨_, hr _, rfl⟩
  refine ⟨fun a => ?_, Or.inl rfl⟩
  rw [e, coord0_toNat]
  have h : (i 0).val < 2 := (i 0).isLt
  fin_cases a <;> simp [S1x1x64x128, S2x4096x64x128] <;> omega

/-- The side condition the body assumes of the index word it loads: the length word's offset is inside the table. -/
theorem hyps_of_range (hr : ∀ x, (tbl m 0 x).toNat < 4096) (hO : Ok m) : Hyps m hO := by
  intro c t
  have hw : (tbM0_0.view.readAt (Elt F) (Rect.unit (s := S1024) (k0_off1 (grid0.coords t)) S1.size (k0_off1_inb (grid0.coords t))).toLoadRect (tbl m 0) (Shape.Idx.first (numel1_S1.symm ▸ Nat.one_pos))).toNat < 4096 := hr _
  revert hw
  generalize tbM0_0.view.readAt (Elt F) (Rect.unit (s := S1024) (k0_off1 (grid0.coords t)) S1.size (k0_off1_inb (grid0.coords t))).toLoadRect (tbl m 0) (Shape.Idx.first (numel1_S1.symm ▸ Nat.one_pos)) = w
  intro hw a
  have h : ((grid0.coords t) 0).val < 2 := ((grid0.coords t) 0).isLt
  have e : k0_off2 (grid0.coords t) w = ![(BitVec.ofNat 32 ((grid0.coords t) 0).val).toNat, w.toNat] := rfl
  rw [e, coord0_toNat]
  fin_cases a <;> simp [S1x1, S2x4096] <;> omega

end Cert.Kernel.Sides

end
-- ==== Proof.KernelIdealSides.lean ====
import proofs.«421975_j65335042507147_2_alg».proof.Proof.Gen.KernelIdeal.Frame
import Idealize.ShloMosaic.Lib.ValueIdx

/-! # The frame's two hypotheses from the range of the index words

The launch prefetches the index vector and the row-length table. Window 0's block at grid point `(g, b)` is
`(g, idx[b], 0, 0)` of the `[2, 4096, 64, 128]` source: it lies inside the array when `idx[b] < 4096` read unsigned
(the pipeline's side condition). The body loads the length word at `(g, idx[b])` of the `[2, 4096]` table: the
offset is in range under the same bound (the side condition the body assumes). Both are stated here from one
hypothesis on the table as the region finds it: every word of it is below 4096. -/

set_option maxRecDepth 16384

noncomputable section

namespace Cert.KernelIdeal.Sides

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The index table the region finds is the argument as launched. -/
theorem tbl_idx : tbl m 0 = m (((0 : Dev nD) : Thread nD τ).loc main_arg0) := V_main_arg0 m 0

/-- So a bound on every word of the argument is a bound on every word of the table the region finds. -/
theorem tbl_lt (h : ∀ b : Fin 1024, (m (((0 : Dev nD) : Thread nD τ).loc main_arg0) (ix1 b)).toNat < 4096) (x : S1024.Idx) :
    (tbl m 0 x).toNat < 4096 := by
  obtain ⟨b, rfl⟩ : ∃ b : Fin 1024, x = ix1 b := ⟨x 0, eq_ix1 x⟩
  exact lt_of_eq_of_lt (congrArg BitVec.toNat (congrFun (tbl_idx m) (ix1 b))) (h b)

/-- A grid coordinate as a 32-bit word reads back as itself. -/
theorem coord0_toNat (i : grid0.Coords) : (BitVec.ofNat 32 (i 0).val).toNat = (i 0).val := by
  have h : (i 0).val < 2 := (i 0).isLt
  rw [BitVec.toNat_ofNat]; omega

/-- The pipeline's side condition: window 0's block, at the index word, inside the source. -/
theorem ok_of_range (hr : ∀ x, (tbl m 0 x).toNat < 4096) : Ok m := by
  intro i
  obtain ⟨w, hw, e⟩ : ∃ w : BitVec 32, w.toNat < 4096 ∧
      cc0_transform_0 k0_off1_inb numel1_S1 (tbl m) i = ![(BitVec.ofNat 32 (i 0).val).toNat, w.toNat, 0, 0] :=
    ⟨_, hr _, rfl⟩
  refine ⟨fun a => ?_, Or.inl rfl⟩
  rw [e, coord0_toNat]
  have h : (i 0).val < 2 := (i 0).isLt
  fin_cases a <;> simp [S1x1x64x128, S2x4096x64x128] <;> omega

/-- The side condition the body assumes of the index word it loads: the length word's offset is inside the table. -/
theorem hyps_of_range (hr : ∀ x, (tbl m 0 x).toNat < 4096) (hO : Ok m) : Hyps m hO := by
  intro c t
  have hw : (tbM0_0.view.readAt (Elt F) (Rect.unit (s := S1024) (k0_off1 (grid0.coords t)) S1.size (k0_off1_inb (grid0.coords t))).toLoadRect (tbl m 0) (Shape.Idx.first (numel1_S1.symm ▸ Nat.one_pos))).toNat < 4096 := hr _
  revert hw
  generalize tbM0_0.view.readAt (Elt F) (Rect.unit (s := S1024) (k0_off1 (grid0.coords t)) S1.size (k0_off1_inb (grid0.coords t))).toLoadRect (tbl m 0) (Shape.Idx.first (numel1_S1.symm ▸ Nat.one_pos)) = w
  intro hw a
  have h : ((grid0.coords t) 0).val < 2 := ((grid0.coords t) 0).isLt
  have e : k0_off2 (grid0.coords t) w = ![(BitVec.ofNat 32 ((grid0.coords t) 0).val).toNat, w.toNat] := rfl
  rw [e, coord0_toNat]
  fin_cases a <;> simp [S1x1, S2x4096] <;> omega

end Cert.KernelIdeal.Sides

end
-- ==== Proof.LibClampIx.lean ====
/-! # A gather's start index: a 32-bit word read signed and clamped into an axis

StableHLO's gather reads each component of a start index as a signed integer and clamps it into
`[0, size − slice size]`. On an axis of `U` positions whose slice has one position that is
`min (max w 0) (U − 1)`: `Int.toNat` sends the negative words to `0`, `min` cuts at `U − 1`. This file names
that position as an element of `Fin U`, so that two programs gathering along the same axis are seen to read
the same place, and records two facts about words that already lie on the axis. -/

namespace Cert.Hand

/-- The position on an axis of `U` places that the word `w`, read signed, is clamped to. -/
def clampIx (U : Nat) (hU : 0 < U) (w : BitVec 32) : Fin U := ⟨min w.toInt.toNat (U - 1), by omega⟩

theorem clampIx_val (U : Nat) (hU : 0 < U) (w : BitVec 32) :
    (clampIx U hU w).val = min w.toInt.toNat (U - 1) := rfl

/-- A word that lies on the axis is its own clamped position. -/
theorem clampIx_val_of_mem (U : Nat) (hU : 0 < U) (w : BitVec 32) (h0 : 0 ≤ w.toInt) (hlt : w.toInt < (U : Int)) :
    (clampIx U hU w).val = w.toInt.toNat := by
  rw [clampIx_val]
  have : w.toInt.toNat < U := by omega
  omega

/-- As an integer, too. -/
theorem clampIx_val_int_of_mem (U : Nat) (hU : 0 < U) (w : BitVec 32) (h0 : 0 ≤ w.toInt) (hlt : w.toInt < (U : Int)) :
    ((clampIx U hU w).val : Int) = w.toInt := by
  rw [clampIx_val_of_mem U hU w h0 hlt]; omega

/-- A word that is not negative as a signed integer is not signed-below zero. -/
theorem slt_zero_of_nonneg (w : BitVec 32) (h0 : 0 ≤ w.toInt) : BitVec.slt w 0#32 = false := by
  simp only [BitVec.slt, BitVec.toInt_zero]
  exact decide_eq_false (by omega)

/-- The normalisation of a possibly negative position — add the axis' length to a word below zero — leaves a
    word that is not negative alone. -/
theorem wrap_of_nonneg (w u : BitVec 32) (h0 : 0 ≤ w.toInt) : (if BitVec.slt w 0#32 then w + u else w) = w := by
  rw [slt_zero_of_nonneg w h0]; rfl

end Cert.Hand
-- ==== Proof.TableCopy.lean ====
import proofs.«421975_j65335042507147_2_alg».proof.Proof.LibClampIx
import Idealize.ShloMosaic.Lib.ValueIdx

/-! # The masked copy of block-table rows, as one function of the four argument arrays

There are two groups, each with a table of 4096 rows of 8192 block numbers (`src`), a row-length table
(`nb`: how many leading entries of each row are in use) and a destination table of 1024 rows (`dst`). Batch slot
`b` names a source row by word `b` of the index vector `idx`. The result is, for group `g`, slot `b` and column `k`:
the source entry `src[g, idx[b], k]` when `k` is below the row's length `nb[g, idx[b]]` (a signed comparison of 32-bit
words), and the destination's own entry `dst[g, b, k]` otherwise.

The row is written as the index word read signed and clamped into the 4096 rows (`clampIx`): that is what a gather
reads at any word, and for a word that names a row it is the word itself. This module also records the arithmetic
that joins the two ways a column is numbered: flat, `k < 8192`, and as a tile position `(s, l)` with
`k = 128 s + l`, `s < 64`, `l < 128`. -/

namespace Cert.TableCopy

open Idealize.ShloMosaic Idealize.ShloMosaic.ValueIdx Cert.Hand

/-- The source row batch slot `b` copies from. -/
def reqRow (idx : (⟨1, ![1024]⟩ : Shape).Idx → BitVec 32) (b : Fin 1024) : Fin 4096 :=
  clampIx 4096 (by decide) (idx (ix1 b))

/-- Whether column `k` lies inside the used part of a row of length word `n` (signed comparison). -/
def inUse (k : Nat) (n : BitVec 32) : BitVec 1 := IntOp.cmpi .slt (BitVec.ofNat 32 k) n

/-- THE RESULT, entry by entry: inside the used part of the named source row the source entry, outside it the
    destination's own entry. -/
def copied (idx : (⟨1, ![1024]⟩ : Shape).Idx → BitVec 32) (src : (⟨3, ![2, 4096, 8192]⟩ : Shape).Idx → BitVec 32)
    (nb : (⟨2, ![2, 4096]⟩ : Shape).Idx → BitVec 32) (dst : (⟨3, ![2, 1024, 8192]⟩ : Shape).Idx → BitVec 32) :
    (⟨3, ![2, 1024, 8192]⟩ : Shape).Idx → BitVec 32 := fun j =>
  Scalar.select (inUse (j 2).val (nb (ix2 (j 0) (reqRow idx (j 1)))))
    (src (ix3 (j 0) (reqRow idx (j 1)) (j 2))) (dst j)

theorem copied_apply (idx : (⟨1, ![1024]⟩ : Shape).Idx → BitVec 32) (src : (⟨3, ![2, 4096, 8192]⟩ : Shape).Idx → BitVec 32)
    (nb : (⟨2, ![2, 4096]⟩ : Shape).Idx → BitVec 32) (dst : (⟨3, ![2, 1024, 8192]⟩ : Shape).Idx → BitVec 32)
    (g : Fin 2) (b : Fin 1024) (k : Fin 8192) :
    copied idx src nb dst (ix3 g b k)
      = Scalar.select (inUse k.val (nb (ix2 g (reqRow idx b)))) (src (ix3 g (reqRow idx b) k)) (dst (ix3 g b k)) := rfl

/-- The column word a tile position computes, `s · 128 + l` in 32-bit arithmetic, is the word of the flat column. -/
theorem col_word (s l : Nat) :
    IntOp.addi (IntOp.muli (BitVec.ofNat 32 s) 128#32) (BitVec.ofNat 32 l) = BitVec.ofNat 32 (s * 128 + l) := by
  show BitVec.ofNat 32 s * BitVec.ofNat 32 128 + BitVec.ofNat 32 l = _
  rw [← BitVec.ofNat_mul, ← BitVec.ofNat_add]

/-- A tile position's flat column is a column. -/
theorem col_lt (s : Fin 64) (l : Fin 128) : s.val * 128 + l.val < 8192 := by
  have := s.isLt; have := l.isLt; omega

/-- The flat column of tile position `(s, l)`. -/
def colOf (s : Fin 64) (l : Fin 128) : Fin 8192 := ⟨s.val * 128 + l.val, col_lt s l⟩

/-- A word that names a row (`0 ≤ w < 4096`, signed) is its own clamped row, read unsigned. -/
theorem reqRow_val (idx : (⟨1, ![1024]⟩ : Shape).Idx → BitVec 32) (b : Fin 1024)
    (h0 : 0 ≤ (idx (ix1 b)).toInt) (hlt : (idx (ix1 b)).toInt < 4096) :
    (reqRow idx b).val = (idx (ix1 b)).toNat := by
  unfold reqRow
  rw [clampIx_val_of_mem 4096 (by decide) _ h0 (by exact_mod_cast hlt)]
  have h32 := (idx (ix1 b)).isLt
  rw [BitVec.toInt_eq_toNat_cond] at h0 hlt ⊢
  split at h0 <;> omega

end Cert.TableCopy
-- ==== Proof.KernelIdealCopy.lean ====
import proofs.«421975_j65335042507147_2_alg».proof.Proof.Gen.KernelIdeal.Frame
import proofs.«421975_j65335042507147_2_alg».proof.Proof.KernelIdealSides
import proofs.«421975_j65335042507147_2_alg».proof.Proof.TableCopy
import Idealize.ShloMosaic.Lib.Pipeline.Value
import Idealize.ShloMosaic.Lib.StableHlo.Run
import Idealize.ShloMosaic.Lib.Tactic

/-! # The kernel's result array, read off its frame run

At grid point `t = (g, b)` the body's one store writes, at tile position `(s, l)`, the fetched source block's entry
where the flat column `128 s + l` is signed-below the loaded length word, and the fetched destination block's entry
elsewhere (`out_piece`, `pay_apply`). The source block is tile `(g, idx[b])` of the source re-laid as
`[2, 4096, 64, 128]`, the destination block tile `(g, b)` of the destination re-laid as `[2, 1024, 64, 128]`, the
length word entry `(g, idx[b])` of the length table (`src_block`, `dst_block`, `len_word`); a re-laid entry
`(·, ·, s, l)` is the flat entry `(·, ·, 128 s + l)` (`src_tile`, `dst_tile`). When the index words name rows, the
index word read unsigned is the row `TableCopy.reqRow` names, so the point leaves row `(g, b)` of the masked copy in
tile layout (`outs_eq`). Every point writes its block back, the blocks tile the output (`cover`: entry
`(g, b, s, l)` belongs to point `1024 g + b`), so the output array ends at the tiled copy (`final`), and the host's
last re-laying reads it at `(k / 128, k mod 128)`: the result is `TableCopy.copied` (`tail_eq`, `run`). -/

set_option maxRecDepth 16384

noncomputable section

namespace Cert.KernelIdeal.Copy

open Cert.KernelIdeal Cert.KernelIdeal.Gen Cert.KernelIdeal.Sides
open Idealize.ShloMosaic Idealize.ShloMosaic.TcCoe Idealize.SL.Sem Idealize.ShloMosaic.Tactic
open Idealize.ShloMosaic.ValueIdx Cert.Hand Cert.TableCopy
open Idealize.ShloMosaic.Pipeline (Dat)

variable {F : FTy → Type} [FloatOps F]
variable (m : (ℓ : Loc nD τ sig) → Buf (Elt F) ℓ) (ρ : Dev nD → PrngReg)

/-! ## The body at one point -/

theorem hz : (![0, 0, 0, 0] : Fin 4 → Nat) = fun _ => 0 := funext fun a => by fin_cases a <;> rfl

/-- What the one store of the body leaves in the output's staging buffer: the select of the two loaded blocks
    under the mask built from the length word, which is read from the length table at the offset the index word
    gives. -/
theorem out_piece (c : Dev nD) (i : grid0.Coords) (a4 : Memref sig .tc .vmem S1x1x64x128 .i32) (h4 : a4.IsWhole)
    (a5 : Memref sig .tc .vmem S1x1x64x128 .i32) (h5 : a5.IsWhole) (a6 : Memref sig .tc .vmem S1x1x64x128 .i32) (h6 : a6.IsWhole)
    (x0 x1 : Vec F S1x1x64x128 .i32) (xt0 : TbBuf0 (F := F) c tbM0_0) (xt1 : TbBuf0 (F := F) c tbM0_1)
    (hw : k0_chk1 i (tbM0_0.view.readAt (Elt F) (Rect.unit (s := S1024) (k0_off1 i) S1.size (k0_off1_inb i)).toLoadRect xt0 (Shape.Idx.first (numel1_S1.symm ▸ Nat.one_pos)))) :
    out0_A_2 c i a4 h4 a5 h5 a6 h6 x0 x1 xt0 xt1 hw
      = k0_pay1 (tbM0_1.view.readAt (Elt F) (Rect.unit (s := S2x4096)
          (k0_off2 i (tbM0_0.view.readAt (Elt F) (Rect.unit (s := S1024) (k0_off1 i) S1.size (k0_off1_inb i)).toLoadRect xt0 (Shape.Idx.first (numel1_S1.symm ▸ Nat.one_pos))))
          S1x1.size (k0_off2_inb i _ hw)).toLoadRect xt1 (Shape.Idx.first (numel1_S1x1.symm ▸ Nat.one_pos))) x0 x1 := by
  unfold out0_A_2
  rw [View.read_writes_eq_canon _ _ _ (cover0_A_2 c i a4 h4 a5 h5 a6 h6 x0 x1 xt0 xt1 hw)]
  unfold kernelRun0_A
  dsimp only
  sl_unfold_words
  rw [View.canon_unit_zero hz]
  simp only [View.readAt_eq_ld, h4.read_unread, h5.read_unread, View.ld_unit_zero (S := S1x1x64x128) hz]

/-- The stored value at tile position `(s, l)`: the first block's entry where the flat column `128 s + l` is below
    the length word, the second block's entry elsewhere. -/
theorem pay_apply (n : BitVec 32) (x0 x1 : Vec F S1x1x64x128 .i32) (s : Fin 64) (l : Fin 128) :
    k0_pay1 (F := F) n x0 x1 (ix4 (0 : Fin 1) (0 : Fin 1) s l)
      = Scalar.select (inUse (colOf s l).val n) (x0 (ix4 0 0 s l)) (x1 (ix4 0 0 s l)) := by
  unfold k0_pay1
  dsimp only
  rw [shapeCast_self, shapeCast_self]
  show Scalar.select (IntOp.cmpi .slt (IntOp.addi (IntOp.muli (iota .tc S1x1x64x128 32 [2] iota_S1x1x64x128_d2_w32 (ix4 0 0 s l)) 128#32)
    (iota .tc S1x1x64x128 32 [3] iota_S1x1x64x128_d3_w32 (ix4 0 0 s l))) n) _ _ = _
  rw [iota_single_apply, iota_single_apply]
  show Scalar.select (IntOp.cmpi .slt (IntOp.addi (IntOp.muli (BitVec.ofNat 32 s.val) 128#32) (BitVec.ofNat 32 l.val)) n) _ _ = _
  rw [col_word]
  rfl

/-! ## The arrays the region finds -/

/-- The source as the region finds it: the argument re-laid `[2, 4096, 8192] → [2, 4096, 64, 128]`. -/
theorem V_src (c : Dev nD) : V m c main_v0
    = shapeCast S2x4096x64x128 (m ((c : Thread nD τ).loc main_arg1)) shapeCasts_S2x4096x8192_S2x4096x64x128 := by
  show StableHlo.after hostOps0 (fun b => m (c, b)) (Proc.devRef .tc main_v0) = _
  after_results
  rfl

/-- The destination as the region finds it: the argument re-laid `[2, 1024, 8192] → [2, 1024, 64, 128]`. -/
theorem V_dst (c : Dev nD) : V m c main_v1
    = shapeCast S2x1024x64x128 (m ((c : Thread nD τ).loc main_arg3)) shapeCasts_S2x1024x8192_S2x1024x64x128 := by
  show StableHlo.after hostOps0 (fun b => m (c, b)) (Proc.devRef .tc main_v1) = _
  after_results
  rfl

/-- A re-laid source entry: tile position `(s, l)` of row `r` is flat column `128 s + l` of it. -/
theorem src_tile (x : S2x4096x8192.Idx → BitVec 32) (g : Fin 2) (r : Fin 4096) (s : Fin 64) (l : Fin 128) :
    shapeCast S2x4096x64x128 x shapeCasts_S2x4096x8192_S2x4096x64x128 (ix4 g r s l) = x (ix3 g r (colOf s l)) := by
  refine shapeCast_apply x _ _ _ ?_
  rw [Shape.rowMajor_val_three, Shape.rowMajor_val_four]
  show (g.val * 4096 + r.val) * 8192 + (s.val * 128 + l.val) = ((g.val * 4096 + r.val) * 64 + s.val) * 128 + l.val
  ring

/-- The same for the destination. -/
theorem dst_tile (x : S2x1024x8192.Idx → BitVec 32) (g : Fin 2) (b : Fin 1024) (s : Fin 64) (l : Fin 128) :
    shapeCast S2x1024x64x128 x shapeCasts_S2x1024x8192_S2x1024x64x128 (ix4 g b s l) = x (ix3 g b (colOf s l)) := by
  refine shapeCast_apply x _ _ _ ?_
  rw [Shape.rowMajor_val_three, Shape.rowMajor_val_four]
  show (g.val * 1024 + b.val) * 8192 + (s.val * 128 + l.val) = ((g.val * 1024 + b.val) * 64 + s.val) * 128 + l.val
  ring

/-! ## The words and blocks at a point -/

/-- A grid coordinate as a 32-bit word, cast to an index, reads back as itself. -/
theorem coord1_toNat (i : grid0.Coords) : (Scalar.indexCast (BitVec.ofNat 32 (i 1).val)).toNat = (i 1).val := by
  have h : (i 1).val < 1024 := (i 1).isLt
  show (BitVec.ofNat 32 (i 1).val).toNat = _
  rw [BitVec.toNat_ofNat]; omega

/-- The one index of a one-element rectangle of the index table at offset `b` is index `b`. -/
theorem unit_idx (off : Fin 1 → Nat) (b : Fin 1024) (hoff : off 0 = b.val) (inb : ∀ a, off a + S1.size a ≤ S1024.size a) (h1 : 0 < S1.numel) :
    (Rect.unit (s := S1024) off S1.size inb).emb (Shape.Idx.first h1) = ix1 b := by
  funext a
  apply Fin.ext
  fin_cases a
  show off 0 + 1 * (Shape.Idx.first h1 (0 : Fin 1)).val = b.val
  have : (Shape.Idx.first h1 (0 : Fin 1)).val = 0 := by
    have := (Shape.Idx.first h1 (0 : Fin 1)).isLt
    have e : S1.size (0 : Fin 1) = 1 := by decide
    omega
  rw [this, hoff]; omega

/-- The one index of a one-element rectangle of the length table at offsets `(g, r)` is index `(g, r)`. -/
theorem unit_idx2 (off : Fin 2 → Nat) (g : Fin 2) (r : Fin 4096) (h0 : off 0 = g.val) (h1 : off 1 = r.val)
    (inb : ∀ a, off a + S1x1.size a ≤ S2x4096.size a) (hn : 0 < S1x1.numel) :
    (Rect.unit (s := S2x4096) off S1x1.size inb).emb (Shape.Idx.first hn) = ix2 g r := by
  funext a
  apply Fin.ext
  have z : ∀ a : Fin 2, (Shape.Idx.first hn a).val = 0 := fun a => by
    have := (Shape.Idx.first hn a).isLt
    have e : S1x1.size a = 1 := by fin_cases a <;> decide
    omega
  fin_cases a
  · show off 0 + 1 * (Shape.Idx.first hn (0 : Fin 2)).val = g.val
    rw [z, h0]; omega
  · show off 1 + 1 * (Shape.Idx.first hn (1 : Fin 2)).val = r.val
    rw [z, h1]; omega

/-- The index word the body loads at point `i` is word `i 1` of the index table. -/
theorem idx_word (c : Dev nD) (xt0 : TbBuf0 (F := F) c tbM0_0) (i : grid0.Coords) :
    tbM0_0.view.readAt (Elt F) (Rect.unit (s := S1024) (k0_off1 i) S1.size (k0_off1_inb i)).toLoadRect xt0 (Shape.Idx.first (numel1_S1.symm ▸ Nat.one_pos))
      = xt0 (ix1 (i 1)) :=
  congrArg xt0 (unit_idx _ (i 1) (coord1_toNat i) _ _)

/-- The length word the body loads at offsets `(g, r)` is entry `(g, r)` of the length table. -/
theorem len_word (c : Dev nD) (xt1 : TbBuf0 (F := F) c tbM0_1) (off : Fin 2 → Nat) (g : Fin 2) (r : Fin 4096) (h0 : off 0 = g.val) (h1 : off 1 = r.val)
    (inb : ∀ a, off a + S1x1.size a ≤ S2x4096.size a) (hn : 0 < S1x1.numel) :
    tbM0_1.view.readAt (Elt F) (Rect.unit (s := S2x4096) off S1x1.size inb).toLoadRect xt1 (Shape.Idx.first hn) = xt1 (ix2 g r) :=
  congrArg xt1 (unit_idx2 off g r h0 h1 inb hn)

/-- The destination block the pipeline fetched at point `t`, at tile position `(s, l)`: row `(g, b)` of the
    destination as the region finds it. -/
theorem dst_block (hO : Ok m) (c : Dev nD) (t : Fin (cfgM m hO).N) (s : Fin 64) (l : Fin 128) :
    iblk m hO c 1 t (ix4 (0 : Fin 1) (0 : Fin 1) s l) = V m c main_v1 (ix4 (grid0.coords t 0) (grid0.coords t 1) s l) := by
  show V m c main_v1 ((((cfgM m hO).win 1).blk t).view.emb (ix4 (0 : Fin 1) (0 : Fin 1) s l)) = _
  refine congrArg (V m c main_v1) (funext fun a => Fin.ext ?_)
  refine (Pipeline.Window.rect_emb_val ((cfgM m hO).win 1) t _ a).trans ?_
  match a with
  | ⟨0, _⟩ =>
    show (BitVec.ofNat 32 (grid0.coords t 0).val).toNat * 1 + 0 = (grid0.coords t 0).val
    rw [coord0_toNat]; omega
  | ⟨1, _⟩ =>
    show (BitVec.ofNat 32 (grid0.coords t 1).val).toNat * 1 + 0 = (grid0.coords t 1).val
    rw [show (BitVec.ofNat 32 (grid0.coords t 1).val).toNat = _ from coord1_toNat (grid0.coords t)]; omega
  | ⟨2, _⟩ =>
    show 0 * 64 + s.val = s.val
    omega
  | ⟨3, _⟩ =>
    show 0 * 128 + l.val = l.val
    omega

/-- The source block the pipeline fetched at point `t`, at tile position `(s, l)`: row `(g, r)` of the source as the
    region finds it, `r` the index word of slot `b` read unsigned. -/
theorem src_block (hO : Ok m) (c : Dev nD) (t : Fin (cfgM m hO).N) (s : Fin 64) (l : Fin 128) (r : Fin 4096)
    (hr : (tbl m 0 (ix1 (grid0.coords t 1))).toNat = r.val) :
    iblk m hO c 0 t (ix4 (0 : Fin 1) (0 : Fin 1) s l) = V m c main_v0 (ix4 (grid0.coords t 0) r s l) := by
  show V m c main_v0 ((((cfgM m hO).win 0).blk t).view.emb (ix4 (0 : Fin 1) (0 : Fin 1) s l)) = _
  refine congrArg (V m c main_v0) (funext fun a => Fin.ext ?_)
  refine (Pipeline.Window.rect_emb_val ((cfgM m hO).win 0) t _ a).trans ?_
  match a with
  | ⟨0, _⟩ =>
    show (BitVec.ofNat 32 (grid0.coords t 0).val).toNat * 1 + 0 = (grid0.coords t 0).val
    rw [coord0_toNat]; omega
  | ⟨1, h1⟩ =>
    have e : ((cfgM m hO).win 0).index t ⟨1, h1⟩ = (tbl m 0 (ix1 (grid0.coords t 1))).toNat :=
      congrArg (fun x => BitVec.toNat (tbl m 0 x)) (unit_idx _ (grid0.coords t 1) (coord1_toNat _) _ _)
    show _ * 1 + 0 = r.val
    rw [Nat.mul_one, Nat.add_zero]
    exact e.trans hr
  | ⟨2, _⟩ =>
    show 0 * 64 + s.val = s.val
    omega
  | ⟨3, _⟩ =>
    show 0 * 128 + l.val = l.val
    omega

theorem select_congr {α : Type} {p p' : BitVec 1} {a a' b b' : α} (hp : p = p') (ha : a = a') (hb : b = b') :
    Scalar.select p a b = Scalar.select p' a' b' := by subst hp ha hb; rfl

/-! ## What a point leaves, and what the region leaves -/

/-- The masked copy in the tile layout `[2, 1024, 64, 128]`: entry `(g, b, s, l)` is the copy's entry
    `(g, b, 128 s + l)`. -/
def tiled (idx : (⟨1, ![1024]⟩ : Shape).Idx → BitVec 32) (src : (⟨3, ![2, 4096, 8192]⟩ : Shape).Idx → BitVec 32)
    (nb : (⟨2, ![2, 4096]⟩ : Shape).Idx → BitVec 32) (dst : (⟨3, ![2, 1024, 8192]⟩ : Shape).Idx → BitVec 32) :
    (⟨4, ![2, 1024, 64, 128]⟩ : Shape).Idx → BitVec 32 := fun j =>
  copied idx src nb dst (ix3 (j 0) (j 1) (colOf (j 2) (j 3)))

/-- The four argument arrays on device `c`. -/
abbrev argIdx (c : Dev nD) : (⟨1, ![1024]⟩ : Shape).Idx → BitVec 32 := m ((c : Thread nD τ).loc main_arg0)
abbrev argSrc (c : Dev nD) : (⟨3, ![2, 4096, 8192]⟩ : Shape).Idx → BitVec 32 := m ((c : Thread nD τ).loc main_arg1)
abbrev argLen (c : Dev nD) : (⟨2, ![2, 4096]⟩ : Shape).Idx → BitVec 32 := m ((c : Thread nD τ).loc main_arg2)
abbrev argDst (c : Dev nD) : (⟨3, ![2, 1024, 8192]⟩ : Shape).Idx → BitVec 32 := m ((c : Thread nD τ).loc main_arg3)

/-- The tiled copy of the arguments, as contents of the kernel's output array. -/
abbrev result4 (c : Dev nD) : Buf (Elt F) ((c : Thread nD τ).loc main_v2) :=
  tiled (argIdx m c) (argSrc m c) (argLen m c) (argDst m c)

/-- The index words name rows: the hypothesis under which the kernel's value is read. -/
def InRange : Prop := ∀ (c : Dev nD) (b : Fin 1024), 0 ≤ (argIdx m c (ix1 b)).toInt ∧ (argIdx m c (ix1 b)).toInt < 4096

/-- Under it the index word of slot `b` the region finds, read unsigned, is the row `reqRow` names. -/
theorem row_at (h : InRange m) (b : Fin 1024) : (tbl m 0 (ix1 b)).toNat = (reqRow (argIdx m 0) b).val := by
  rw [tbl_idx]
  exact (reqRow_val (argIdx m 0) b (h 0 b).1 (h 0 b).2).symm

/-- WHAT POINT `t = (g, b)` LEAVES in the output's staging buffer: row `(g, b)` of the tiled copy. -/
theorem outs_eq (h : InRange m) (hO : Ok m) (hH : Hyps m hO) (c : Dev nD) (t : Fin (cfgM m hO).N) (s : Fin 64) (l : Fin 128) :
    outsAt0 m hO hH c t (ix4 (0 : Fin 1) (0 : Fin 1) s l) = result4 m c (ix4 (grid0.coords t 0) (grid0.coords t 1) s l) := by
  obtain rfl : c = 0 := Subsingleton.elim _ _
  unfold outsAt0
  refine (congrFun (out_piece (F := F) 0 (grid0.coords t) (ms0_0 m hO t) (hs0_0 m hO t) (ms0_1 m hO t) (hs0_1 m hO t)
    (ms0_2 m hO t) (hs0_2 m hO t) (iblk m hO 0 0 t) (iblk m hO 0 1 t) (tbl m 0) (tbl m 1) (Hyps.c0 hH 0 t)) (ix4 0 0 s l)).trans ?_
  refine (pay_apply _ _ _ s l).trans ?_
  show _ = Scalar.select (inUse (colOf s l).val (argLen m 0 (ix2 (grid0.coords t 0) (reqRow (argIdx m 0) (grid0.coords t 1)))))
    (argSrc m 0 (ix3 (grid0.coords t 0) (reqRow (argIdx m 0) (grid0.coords t 1)) (colOf s l)))
    (argDst m 0 (ix3 (grid0.coords t 0) (grid0.coords t 1) (colOf s l)))
  refine select_congr (congrArg (inUse _) ?_) ?_ ?_
  · -- the length word
    refine (len_word 0 (tbl m 1) _ (grid0.coords t 0) (reqRow (argIdx m 0) (grid0.coords t 1)) ?_ ?_ _ _).trans ?_
    · show (BitVec.ofNat 32 (grid0.coords t 0).val).toNat = _
      exact coord0_toNat _
    · show BitVec.toNat (tbM0_0.view.readAt (Elt F) (Rect.unit (s := S1024) (k0_off1 (grid0.coords t)) S1.size (k0_off1_inb (grid0.coords t))).toLoadRect (tbl m 0) (Shape.Idx.first (numel1_S1.symm ▸ Nat.one_pos))) = _
      rw [idx_word 0 (tbl m 0) (grid0.coords t)]
      exact row_at m h _
    · exact congrFun (V_main_arg2 m 0) _
  · -- the source block
    refine (src_block m hO 0 t s l (reqRow (argIdx m 0) (grid0.coords t 1)) (row_at m h _)).trans ?_
    rw [V_src]
    exact src_tile _ _ _ s l
  · -- the destination block
    refine (dst_block m hO 0 t s l).trans ?_
    rw [V_dst]
    exact dst_tile _ _ _ s l

/-- A block index has leading coordinates `0, 0`. -/
theorem blk_idx (y : S1x1x64x128.Idx) : y = ix4 (0 : Fin 1) (0 : Fin 1) (y 2) (y 3) := by
  have e0 : S1x1x64x128.size 0 = 1 := rfl
  have e1 : S1x1x64x128.size 1 = 1 := rfl
  have h0 := (y 0).isLt
  have h1 := (y 1).isLt
  funext a
  match a with
  | ⟨0, _⟩ => exact Fin.ext (show (y 0).val = 0 by omega)
  | ⟨1, _⟩ => exact Fin.ext (show (y 1).val = 0 by omega)
  | ⟨2, _⟩ => rfl
  | ⟨3, _⟩ => rfl

/-- Where the output block of point `t = (g, b)` sits in the output array: tile position `(s, l)` of it is entry
    `(g, b, s, l)`. -/
theorem out_emb (hO : Ok m) (t : Fin (cfgM m hO).N) (s : Fin 64) (l : Fin 128) :
    (((cfgM m hO).win 2).blk t).view.emb (ix4 (0 : Fin 1) (0 : Fin 1) s l) = ix4 (grid0.coords t 0) (grid0.coords t 1) s l := by
  refine funext fun a => Fin.ext ?_
  refine (Pipeline.Window.rect_emb_val ((cfgM m hO).win 2) t _ a).trans ?_
  match a with
  | ⟨0, _⟩ =>
    show (BitVec.ofNat 32 (grid0.coords t 0).val).toNat * 1 + 0 = (grid0.coords t 0).val
    rw [coord0_toNat]; omega
  | ⟨1, _⟩ =>
    show (BitVec.ofNat 32 (grid0.coords t 1).val).toNat * 1 + 0 = (grid0.coords t 1).val
    rw [show (BitVec.ofNat 32 (grid0.coords t 1).val).toNat = _ from coord1_toNat (grid0.coords t)]; omega
  | ⟨2, _⟩ =>
    show 0 * 64 + s.val = s.val
    omega
  | ⟨3, _⟩ =>
    show 0 * 128 + l.val = l.val
    omega

/-- What point `t` writes back is block `t` of the tiled copy. -/
theorem flushed_eq (h : InRange m) (hO : Ok m) (hH : Hyps m hO) (c : Dev nD) (t : Fin (cfgM m hO).N)
    (_ : ((cfgM m hO).win 2).flush t = true) :
    (dats m hO hH 0 c).flushed 2 t = (((cfgM m hO).win 2).blk t).view.read (Elt F) (result4 m c) := by
  show ((cfgM m hO).win 2).cut (grid0.coords t) ((dats m hO hH 0 c).after 2 t) = _
  rw [after0_2]
  refine funext fun (y : S1x1x64x128.Idx) => ?_
  obtain ⟨s, l, rfl⟩ : ∃ (s : Fin 64) (l : Fin 128), y = ix4 (0 : Fin 1) (0 : Fin 1) s l := ⟨y 2, y 3, blk_idx y⟩
  refine (outs_eq m h hO hH c t s l).trans ?_
  exact (congrArg (result4 m c) (out_emb m hO t s l)).symm

/-- The grid has 2048 points, row-major: point `1024 g + b` has coordinates `(g, b)`. -/
theorem coords_mk (g : Fin 2) (b : Fin 1024) (hlt : g.val * 1024 + b.val < grid0.N) :
    grid0.coords ⟨g.val * 1024 + b.val, hlt⟩ 0 = g ∧ grid0.coords ⟨g.val * 1024 + b.val, hlt⟩ 1 = b := by
  have s0 : grid0.stride 0 = 1024 := by decide
  have s1 : grid0.stride 1 = 1 := by decide
  have hg := g.isLt
  have hb := b.isLt
  constructor
  · apply Fin.ext
    show (g.val * 1024 + b.val) / grid0.stride 0 % 2 = g.val
    rw [s0]; omega
  · apply Fin.ext
    show (g.val * 1024 + b.val) / grid0.stride 1 % 1024 = b.val
    rw [s1]; omega

/-- Every entry of the output array is in the block of the point its two leading coordinates name. -/
theorem cover (hO : Ok m) (c : Dev nD) (i : S2x1024x64x128.Idx) :
    ∃ t : Fin (cfgM m hO).N, ((cfgM m hO).win 2).flush t = true ∧ i ∈ (((cfgM m hO).win 2).blk t).view.set := by
  have hN : grid0.N = 2048 := N_0
  have h0 : (i 0).val < 2 := (i 0).isLt
  have h1 : (i 1).val < 1024 := (i 1).isLt
  have hlt : (i 0).val * 1024 + (i 1).val < grid0.N := by rw [hN]; omega
  obtain ⟨t, ht0, ht1⟩ : ∃ t : Fin (cfgM m hO).N, grid0.coords t 0 = i 0 ∧ grid0.coords t 1 = i 1 :=
    ⟨⟨_, hlt⟩, coords_mk (i 0) (i 1) hlt⟩
  refine ⟨t, flush0_2 (adm m hO) t, ?_⟩
  have e : (((cfgM m hO).win 2).blk t).view.emb (ix4 (0 : Fin 1) (0 : Fin 1) (i 2) (i 3)) = i := by
    rw [out_emb m hO t (i 2) (i 3), ht0, ht1]
    exact (eq_ix4 i).symm
  have hm := (((cfgM m hO).win 2).blk t).view.emb_mem_set (ix4 (0 : Fin 1) (0 : Fin 1) (i 2) (i 3))
  rw [e] at hm
  exact hm

/-- So the output array ends holding the tiled copy. -/
theorem final (h : InRange m) (hO : Ok m) (hH : Hyps m hO) (c : Dev nD) :
    (dats m hO hH 0 c).arrAt 2 (cfgM m hO).N = result4 m c :=
  (dats m hO hH 0 c).arrAt_eq_of_cover 2 (result4 m c) (flushed_eq m h hO hH c) (cover m hO c)

/-- A flat column splits into its tile position. -/
theorem col_split (k : Fin 8192) : colOf ⟨k.val / 128, by have := k.isLt; omega⟩ ⟨k.val % 128, Nat.mod_lt _ (by decide)⟩ = k := by
  apply Fin.ext
  show k.val / 128 * 128 + k.val % 128 = k.val
  omega

/-- THE RESULT ARRAY: the host re-lays the kernel's output `[2, 1024, 64, 128] → [2, 1024, 8192]`, which reads
    the tiled copy at the tile position of each flat column: the masked copy. -/
theorem tail_eq (h : InRange m) (hO : Ok m) (hH : Hyps m hO) (c : Dev nD) :
    Pipeline.afterTail pcfgs (fun _ => adm m hO) (dats m hO hH) 0 (V0 m) [hostOps1] c main_v3
      = copied (argIdx m c) (argSrc m c) (argLen m c) (argDst m c) := by
  unfold Pipeline.afterTail
  show StableHlo.after hostOps1 _ (Proc.devRef .tc main_v3) = _
  after_results
  rw [show Pipeline.withArrays (Pipeline.pin pcfgs (fun _ => adm m hO) 0).spec c (V0 m c)
      (fun w => (dats m hO hH 0 c).arrAt w (Pipeline.pin pcfgs (fun _ => adm m hO) 0).N) (Proc.devRef .tc main_v2) = result4 m c from
    (Pipeline.withArrays_arr spec0 (launch0 (F := F)).win.arr_inj c _ _ 2).trans (final m h hO hH c)]
  funext j
  obtain ⟨g, b, k, rfl⟩ : ∃ (g : Fin 2) (b : Fin 1024) (k : Fin 8192), j = ix3 g b k := ⟨j 0, j 1, j 2, eq_ix3 j⟩
  show shapeCast S2x1024x8192 (result4 m c) shapeCasts_S2x1024x64x128_S2x1024x8192 (ix3 g b k) = _
  have hk := k.isLt
  refine (shapeCast_apply (result4 m c) _ _ (ix4 g b ⟨k.val / 128, by omega⟩ ⟨k.val % 128, Nat.mod_lt _ (by decide)⟩) ?_).trans ?_
  · show ((⟨4, ![2, 1024, 64, 128]⟩ : Shape).rowMajor (ix4 g b ⟨k.val / 128, by omega⟩ ⟨k.val % 128, Nat.mod_lt _ (by decide)⟩)).val
      = ((⟨3, ![2, 1024, 8192]⟩ : Shape).rowMajor (ix3 g b k)).val
    rw [Shape.rowMajor_val_three, Shape.rowMajor_val_four]
    show ((g.val * 1024 + b.val) * 64 + k.val / 128) * 128 + k.val % 128 = (g.val * 1024 + b.val) * 8192 + k.val
    omega
  · show copied _ _ _ _ (ix3 g b (colOf _ _)) = _
    rw [col_split]

/-- Under the range hypothesis every word of the index table the region finds is below 4096. -/
theorem tbl_range (h : InRange m) (x : S1024.Idx) : (tbl m 0 x).toNat < 4096 := by
  obtain ⟨b, rfl⟩ : ∃ b : Fin 1024, x = ix1 b := ⟨x 0, eq_ix1 x⟩
  exact lt_of_eq_of_lt (row_at m h b) (reqRow _ b).isLt

/-- THE KERNEL'S RUN with its result named: when the index words name rows, every weakly fair execution ends with
    the result array at the masked copy of the arguments and the arguments unchanged. -/
theorem run (h : InRange m) (hO : Ok m) (hH : Hyps m hO) :
    θ_run defs (onTc (τ := τ) (main (F := F))) ⟨m, fun _ => 0, ρ⟩ fun r => ∀ c : Dev nD,
      r.2.mem ((c.tc : Thread nD τ).loc main_v3) = copied (argIdx m c) (argSrc m c) (argLen m c) (argDst m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ hq c => ?_) (run_main m ρ hO hH)
  exact ⟨((hq c).2 main_v3 (by decide : main_v3 ∈ Pipeline.restRefs sig spec0)).trans (tail_eq m h hO hH c),
    ((hq c).2 main_arg0 (by decide : main_arg0 ∈ Pipeline.restRefs sig spec0)).trans (W_main_arg0 m hO (dats m hO hH) c),
    ((hq c).2 main_arg1 (by decide : main_arg1 ∈ Pipeline.restRefs sig spec0)).trans (W_main_arg1 m hO (dats m hO hH) c),
    ((hq c).2 main_arg2 (by decide : main_arg2 ∈ Pipeline.restRefs sig spec0)).trans (W_main_arg2 m hO (dats m hO hH) c),
    ((hq c).2 main_arg3 (by decide : main_arg3 ∈ Pipeline.restRefs sig spec0)).trans (W_main_arg3 m hO (dats m hO hH) c)⟩

end Cert.KernelIdeal.Copy

end
-- ==== Proof.LibGatherAt.lean ====
import proofs.«421975_j65335042507147_2_alg».proof.Proof.LibClampIx
import Idealize.ShloMosaic.Lib.ValueIdx

/-! # `stablehlo.gather` read at an index, for four arrangements of axes

`Host.gather d x idx j = x (d.operandIdx j idx)`: on each operand axis the operand index is the clamped start
(the start index's component for that axis, read signed, when the start-index map names the axis) plus the
batching coordinate plus the offset coordinate (the result's own coordinate on an offset axis). Here are the
four arrangements in which every axis is either an offset axis read whole or a collapsed axis named by the
start-index map, there is no batching axis, and the start indices are `[N, 1]` or `[N, 2]` with the index
vector on the last axis. Each lemma is stated over variable extents, for dimension numbers given as a record of
those extents, and says which operand element result element `(l, n)` or `(n, l)` is, with the clamped
positions written as `clampIx`. -/

namespace Cert.Hand

open Idealize.ShloMosaic Idealize.ShloMosaic.ValueIdx

section LUV
variable {α : Type} {L U V N : Nat}

/-- Dimension numbers of a gather that reads, for each of `N` index pairs `(u, v)`, the whole first axis of an
    operand `[L, U, V]` at `(·, u, v)`: the result is `[L, N]`. -/
abbrev dimsLUV (L U V N : Nat)
    (wf : GatherDims.WF ⟨3, ![L, U, V]⟩ ⟨2, ![N, 2]⟩ ⟨2, ![L, N]⟩ [0] [1, 2] [] [1, 2] [] 1 ![L, 1, 1]) :
    GatherDims ⟨3, ![L, U, V]⟩ ⟨2, ![N, 2]⟩ ⟨2, ![L, N]⟩ where
  offsetDims := [0]
  collapsedSliceDims := [1, 2]
  operandBatchingDims := []
  startIndicesBatchingDims := []
  startIndexMap := [1, 2]
  indexVectorDim := 1
  sliceSizes := ![L, 1, 1]
  wf := wf

/-- Result element `(l, n)` is the operand at `(l, u, v)`, where `u` and `v` are the two words of index pair
    `n`, each read signed and clamped into its axis. -/
theorem gather_LUV_apply (hU : 0 < U) (hV : 0 < V)
    (wf : GatherDims.WF ⟨3, ![L, U, V]⟩ ⟨2, ![N, 2]⟩ ⟨2, ![L, N]⟩ [0] [1, 2] [] [1, 2] [] 1 ![L, 1, 1])
    (x : (⟨3, ![L, U, V]⟩ : Shape).Idx → α) (idx : IVec ⟨2, ![N, 2]⟩ 32) (l : Fin L) (n : Fin N) :
    Host.gather (dimsLUV L U V N wf) x idx (ix2 l n)
      = x (ix3 l (clampIx U hU (idx (ix2 n 0))) (clampIx V hV (idx (ix2 n 1)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 3) ∉ (dimsLUV L U V N wf).startIndexMap from
      (by decide : (0 : Fin 3) ∉ ([1, 2] : List (Fin 3))))]
    unfold GatherDims.offCoord
    rw [dif_pos (show (⟨0, h0⟩ : Fin 3) ∈ (dimsLUV L U V N wf).sKept from
      (by decide : (0 : Fin 3) ∈ ([0] : List (Fin 3))))]
    rw [Nat.add_zero, Nat.zero_add]
    rfl
  | ⟨1, h1⟩ =>
    -- the second axis is collapsed and is the start index's first component
    show GatherDims.start _ _ _ _ + GatherDims.batchCoord _ _ _ + GatherDims.offCoord _ _ _ = _
    have hm : (⟨1, h1⟩ : Fin 3) ∈ (dimsLUV L U V N wf).startIndexMap :=
      (by decide : (1 : Fin 3) ∈ ([1, 2] : List (Fin 3)))
    rw [GatherDims.batchCoord_eq_zero _ _ _ List.not_mem_nil,
      GatherDims.offCoord_eq_zero _ _ _ (show (⟨1, h1⟩ : Fin 3) ∉ (dimsLUV L U V N wf).sKept from
        (by decide : (1 : Fin 3) ∉ ([0] : List (Fin 3))))]
    unfold GatherDims.start
    rw [dif_pos hm]
    have hsi : (dimsLUV L U V N wf).siIdx (ix2 l n)
        ⟨List.idxOf (⟨1, h1⟩ : Fin 3) (dimsLUV L U V N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨2, h2⟩ =>
    -- the third axis is collapsed and is the start index's second component
    show GatherDims.start _ _ _ _ + GatherDims.batchCoord _ _ _ + GatherDims.offCoord _ _ _ = _
    have hm : (⟨2, h2⟩ : Fin 3) ∈ (dimsLUV L U V N wf).startIndexMap :=
      (by decide : (2 : Fin 3) ∈ ([1, 2] : List (Fin 3)))
    rw [GatherDims.batchCoord_eq_zero _ _ _ List.not_mem_nil,
      GatherDims.offCoord_eq_zero _ _ _ (show (⟨2, h2⟩ : Fin 3) ∉ (dimsLUV L U V N wf).sKept from
        (by decide : (2 : Fin 3) ∉ ([0] : List (Fin 3))))]
    unfold GatherDims.start
    rw [dif_pos hm]
    have hsi : (dimsLUV L U V N wf).siIdx (ix2 l n)
        ⟨List.idxOf (⟨2, h2⟩ : Fin 3) (dimsLUV L U V N wf).startIndexMap, List.idxOf_lt_length_iff.2 hm⟩
          = ix2 n 1 := by
      funext b; refine Fin.ext ?_
      match b with
      | ⟨0, _⟩ => rfl
      | ⟨1, _⟩ => rfl
    rw [hsi]
    rfl

end LUV

section LU
variable {α : Type} {L U N : Nat}

/-- Dimension numbers of a gather that reads, for each of `N` indices `u`, the whole first axis of an operand
    `[L, U]` at `(·, u)`: the result is `[L, N]`. -/
abbrev dimsLU (L U N : Nat)
    (wf : GatherDims.WF ⟨2, ![L, U]⟩ ⟨2, ![N, 1]⟩ ⟨2, ![L, N]⟩ [0] [1] [] [1] [] 1 ![L, 1]) :
    GatherDims ⟨2, ![L, U]⟩ ⟨2, ![N, 1]⟩ ⟨2, ![L, N]⟩ where
  offsetDims := [0]
  collapsedSliceDims := [1]
  operandBatchingDims := []
  startIndicesBatchingDims := []
  startIndexMap := [1]
  indexVectorDim := 1
  sliceSizes := ![L, 1]
  wf := wf

/-- Result element `(l, n)` is the operand at `(l, u)`, where `u` is index word `n` read signed and clamped
    into the second axis. -/
theorem gather_LU_apply (hU : 0 < U)
    (wf : GatherDims.WF ⟨2, ![L, U]⟩ ⟨2, ![N, 1]⟩ ⟨2, ![L, N]⟩ [0] [1] [] [1] [] 1 ![L, 1])
    (x : (⟨2, ![L, U]⟩ : Shape).Idx → α) (idx : IVec ⟨2, ![N, 1]⟩ 32) (l : Fin L) (n : Fin N) :
    Host.gather (dimsLU L U N wf) x idx (ix2 l n) = x (ix2 l (clampIx U hU (idx (ix2 n 0)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 2) ∉ (dimsLU L U N wf).startIndexMap from
      (by decide : (0 : Fin 2) ∉ ([1] : List (Fin 2))))]
    unfold GatherDims.offCoord
    rw [dif_pos (show (⟨0, h0⟩ : Fin 2) ∈ (dimsLU L U N wf).sKept from
      (by decide : (0 : Fin 2) ∈ ([0] : List (Fin 2))))]
    rw [Nat.add_zero, Nat.zero_add]
    rfl
  | ⟨1, h1⟩ =>
    -- the second axis is collapsed and is the start index's one component
    show GatherDims.start _ _ _ _ + GatherDims.batchCoord _ _ _ + GatherDims.offCoord _ _ _ = _
    have hm : (⟨1, h1⟩ : Fin 2) ∈ (dimsLU L U N wf).startIndexMap :=
      (by decide : (1 : Fin 2) ∈ ([1] : List (Fin 2)))
    rw [GatherDims.batchCoord_eq_zero _ _ _ List.not_mem_nil,
      GatherDims.offCoord_eq_zero _ _ _ (show (⟨1, h1⟩ : Fin 2) ∉ (dimsLU L U N wf).sKept from
        (by decide : (1 : Fin 2) ∉ ([0] : List (Fin 2))))]
    unfold GatherDims.start
    rw [dif_pos hm]
    have hsi : (dimsLU L U N wf).siIdx (ix2 l n)
        ⟨List.idxOf (⟨1, h1⟩ : Fin 2) (dimsLU L U N wf).startIndexMap, List.idxOf_lt_length_iff.2 hm⟩
          = ix2 n 0 := by
      funext b; refine Fin.ext ?_
      match b with
      | ⟨0, _⟩ => rfl
      | ⟨1, _⟩ => rfl
    rw [hsi]
    rfl

end LU

section UL
variable {α : Type} {U L N : Nat}

/-- Dimension numbers of a gather that reads, for each of `N` indices `u`, row `u` of an operand `[U, L]`:
    the result is `[N, L]`. -/
abbrev dimsUL (U L N : Nat)
    (wf : GatherDims.WF ⟨2, ![U, L]⟩ ⟨2, ![N, 1]⟩ ⟨2, ![N, L]⟩ [1] [0] [] [0] [] 1 ![1, L]) :
    GatherDims ⟨2, ![U, L]⟩ ⟨2, ![N, 1]⟩ ⟨2, ![N, L]⟩ where
  offsetDims := [1]
  collapsedSliceDims := [0]
  operandBatchingDims := []
  startIndicesBatchingDims := []
  startIndexMap := [0]
  indexVectorDim := 1
  sliceSizes := ![1, L]
  wf := wf

/-- Result element `(n, l)` is the operand at `(u, l)`, where `u` is index word `n` read signed and clamped
    into the first axis. -/
theorem gather_UL_apply (hU : 0 < U)
    (wf : GatherDims.WF ⟨2, ![U, L]⟩ ⟨2, ![N, 1]⟩ ⟨2, ![N, L]⟩ [1] [0] [] [0] [] 1 ![1, L])
    (x : (⟨2, ![U, L]⟩ : Shape).Idx → α) (idx : IVec ⟨2, ![N, 1]⟩ 32) (n : Fin N) (l : Fin L) :
    Host.gather (dimsUL U L N wf) x idx (ix2 n l) = x (ix2 (clampIx U hU (idx (ix2 n 0))) l) := by
  unfold Host.gather
  congr 1
  funext a
  refine Fin.ext ?_
  match a with
  | ⟨0, h0⟩ =>
    -- the first axis is collapsed and is the start index's one component
    show GatherDims.start _ _ _ _ + GatherDims.batchCoord _ _ _ + GatherDims.offCoord _ _ _ = _
    have hm : (⟨0, h0⟩ : Fin 2) ∈ (dimsUL U L N wf).startIndexMap :=
      (by decide : (0 : Fin 2) ∈ ([0] : List (Fin 2)))
    rw [GatherDims.batchCoord_eq_zero _ _ _ List.not_mem_nil,
      GatherDims.offCoord_eq_zero _ _ _ (show (⟨0, h0⟩ : Fin 2) ∉ (dimsUL U L N wf).sKept from
        (by decide : (0 : Fin 2) ∉ ([1] : List (Fin 2))))]
    unfold GatherDims.start
    rw [dif_pos hm]
    have hsi : (dimsUL U L N wf).siIdx (ix2 n l)
        ⟨List.idxOf (⟨0, h0⟩ : Fin 2) (dimsUL U L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨1, h1⟩ : Fin 2) ∉ (dimsUL U L N wf).startIndexMap from
      (by decide : (1 : Fin 2) ∉ ([0] : List (Fin 2))))]
    unfold GatherDims.offCoord
    rw [dif_pos (show (⟨1, h1⟩ : Fin 2) ∈ (dimsUL U L N wf).sKept from
      (by decide : (1 : Fin 2) ∈ ([1] : List (Fin 2))))]
    rw [Nat.add_zero, Nat.zero_add]
    rfl

end UL

section UVL
variable {α : Type} {U V L N : Nat}

/-- Dimension numbers of a gather that reads, for each of `N` index pairs `(u, v)`, the whole last axis of an
    operand `[U, V, L]` at `(u, v, ·)`: the result is `[N, L]`. -/
abbrev dimsUVL (U V L N : Nat)
    (wf : GatherDims.WF ⟨3, ![U, V, L]⟩ ⟨2, ![N, 2]⟩ ⟨2, ![N, L]⟩ [1] [0, 1] [] [0, 1] [] 1 ![1, 1, L]) :
    GatherDims ⟨3, ![U, V, L]⟩ ⟨2, ![N, 2]⟩ ⟨2, ![N, L]⟩ where
  offsetDims := [1]
  collapsedSliceDims := [0, 1]
  operandBatchingDims := []
  startIndicesBatchingDims := []
  startIndexMap := [0, 1]
  indexVectorDim := 1
  sliceSizes := ![1, 1, L]
  wf := wf

/-- Result element `(n, l)` is the operand at `(u, v, l)`, where `u` and `v` are the two words of index pair
    `n`, each read signed and clamped into its axis. -/
theorem gather_UVL_apply (hU : 0 < U) (hV : 0 < V)
    (wf : GatherDims.WF ⟨3, ![U, V, L]⟩ ⟨2, ![N, 2]⟩ ⟨2, ![N, L]⟩ [1] [0, 1] [] [0, 1] [] 1 ![1, 1, L])
    (x : (⟨3, ![U, V, L]⟩ : Shape).Idx → α) (idx : IVec ⟨2, ![N, 2]⟩ 32) (n : Fin N) (l : Fin L) :
    Host.gather (dimsUVL U V L N wf) x idx (ix2 n l)
      = x (ix3 (clampIx U hU (idx (ix2 n 0))) (clampIx V hV (idx (ix2 n 1))) l) := by
  unfold Host.gather
  congr 1
  funext a
  refine Fin.ext ?_
  match a with
  | ⟨0, h0⟩ =>
    -- the first axis is collapsed and is the start index's first component
    show GatherDims.start _ _ _ _ + GatherDims.batchCoord _ _ _ + GatherDims.offCoord _ _ _ = _
    have hm : (⟨0, h0⟩ : Fin 3) ∈ (dimsUVL U V L N wf).startIndexMap :=
      (by decide : (0 : Fin 3) ∈ ([0, 1] : List (Fin 3)))
    rw [GatherDims.batchCoord_eq_zero _ _ _ List.not_mem_nil,
      GatherDims.offCoord_eq_zero _ _ _ (show (⟨0, h0⟩ : Fin 3) ∉ (dimsUVL U V L N wf).sKept from
        (by decide : (0 : Fin 3) ∉ ([2] : List (Fin 3))))]
    unfold GatherDims.start
    rw [dif_pos hm]
    have hsi : (dimsUVL U V L N wf).siIdx (ix2 n l)
        ⟨List.idxOf (⟨0, h0⟩ : Fin 3) (dimsUVL U V L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is collapsed and is the start index's second component
    show GatherDims.start _ _ _ _ + GatherDims.batchCoord _ _ _ + GatherDims.offCoord _ _ _ = _
    have hm : (⟨1, h1⟩ : Fin 3) ∈ (dimsUVL U V L N wf).startIndexMap :=
      (by decide : (1 : Fin 3) ∈ ([0, 1] : List (Fin 3)))
    rw [GatherDims.batchCoord_eq_zero _ _ _ List.not_mem_nil,
      GatherDims.offCoord_eq_zero _ _ _ (show (⟨1, h1⟩ : Fin 3) ∉ (dimsUVL U V L N wf).sKept from
        (by decide : (1 : Fin 3) ∉ ([2] : List (Fin 3))))]
    unfold GatherDims.start
    rw [dif_pos hm]
    have hsi : (dimsUVL U V L N wf).siIdx (ix2 n l)
        ⟨List.idxOf (⟨1, h1⟩ : Fin 3) (dimsUVL U V L N wf).startIndexMap, List.idxOf_lt_length_iff.2 hm⟩
          = ix2 n 1 := by
      funext b; refine Fin.ext ?_
      match b with
      | ⟨0, _⟩ => rfl
      | ⟨1, _⟩ => rfl
    rw [hsi]
    rfl
  | ⟨2, h2⟩ =>
    -- the third axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨2, h2⟩ : Fin 3) ∉ (dimsUVL U V L N wf).startIndexMap from
      (by decide : (2 : Fin 3) ∉ ([0, 1] : List (Fin 3))))]
    unfold GatherDims.offCoord
    rw [dif_pos (show (⟨2, h2⟩ : Fin 3) ∈ (dimsUVL U V L N wf).sKept from
      (by decide : (2 : Fin 3) ∈ ([2] : List (Fin 3))))]
    rw [Nat.add_zero, Nat.zero_add]
    rfl

end UVL

end Cert.Hand
-- ==== Proof.LibGatherRows.lean ====
import proofs.«421975_j65335042507147_2_alg».proof.Proof.LibClampIx
import Idealize.ShloMosaic.Lib.ValueIdx

/-! # A gather of whole rows out of a stack of tables, read at an index

An operand `[L, U, M]` is a stack of `L` tables of `U` rows of `M` entries. jnp's `x[:, idx, :]` for an index vector
of `N` words lowers to one `stablehlo.gather` whose result `[L, N, M]` keeps the first and the last operand axis whole
(offset axes `0` and `2`), collapses the middle one, and takes the middle coordinate from the one component of start
index `n`. `Host.gather d x idx j = x (d.operandIdx j idx)`; here the operand index is computed once, for variable
extents: result element `(l, n, k)` is the operand at `(l, u, k)`, with `u` word `n` of the indices read signed and
clamped into the middle axis (`clampIx`). -/

namespace Cert.Hand

open Idealize.ShloMosaic Idealize.ShloMosaic.ValueIdx

section LUM
variable {α : Type} {L U M N : Nat}

/-- Dimension numbers of a gather that reads, for each of `N` indices `u`, row `u` of every one of the `L` tables of
    an operand `[L, U, M]`: the result is `[L, N, M]`. -/
abbrev dimsLUM (L U M N : Nat)
    (wf : GatherDims.WF ⟨3, ![L, U, M]⟩ ⟨2, ![N, 1]⟩ ⟨3, ![L, N, M]⟩ [0, 2] [1] [] [1] [] 1 ![L, 1, M]) :
    GatherDims ⟨3, ![L, U, M]⟩ ⟨2, ![N, 1]⟩ ⟨3, ![L, N, M]⟩ where
  offsetDims := [0, 2]
  collapsedSliceDims := [1]
  operandBatchingDims := []
  startIndicesBatchingDims := []
  startIndexMap := [1]
  indexVectorDim := 1
  sliceSizes := ![L, 1, M]
  wf := wf

/-- Result element `(l, n, k)` is the operand at `(l, u, k)`, where `u` is index word `n` read signed and clamped
    into the middle axis. -/
theorem gather_LUM_apply (hU : 0 < U)
    (wf : GatherDims.WF ⟨3, ![L, U, M]⟩ ⟨2, ![N, 1]⟩ ⟨3, ![L, N, M]⟩ [0, 2] [1] [] [1] [] 1 ![L, 1, M])
    (x : (⟨3, ![L, U, M]⟩ : Shape).Idx → α) (idx : IVec ⟨2, ![N, 1]⟩ 32) (l : Fin L) (n : Fin N) (k : Fin M) :
    Host.gather (dimsLUM L U M N wf) x idx (ix3 l n k) = x (ix3 l (clampIx U hU (idx (ix2 n 0))) k) := by
  unfold Host.gather
  congr 1
  funext a
  refine Fin.ext ?_
  match a with
  | ⟨0, h0⟩ =>
    -- the first axis is an offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 3) ∉ (dimsLUM L U M N wf).startIndexMap from
      (by decide : (0 : Fin 3) ∉ ([1] : List (Fin 3))))]
    unfold GatherDims.offCoord
    rw [dif_pos (show (⟨0, h0⟩ : Fin 3) ∈ (dimsLUM L U M N wf).sKept from
      (by decide : (0 : Fin 3) ∈ ([0, 2] : List (Fin 3))))]
    rw [Nat.add_zero, Nat.zero_add]
    rfl
  | ⟨1, h1⟩ =>
    -- the middle axis is collapsed and is the start index's one component
    show GatherDims.start _ _ _ _ + GatherDims.batchCoord _ _ _ + GatherDims.offCoord _ _ _ = _
    have hm : (⟨1, h1⟩ : Fin 3) ∈ (dimsLUM L U M N wf).startIndexMap :=
      (by decide : (1 : Fin 3) ∈ ([1] : List (Fin 3)))
    rw [GatherDims.batchCoord_eq_zero _ _ _ List.not_mem_nil,
      GatherDims.offCoord_eq_zero _ _ _ (show (⟨1, h1⟩ : Fin 3) ∉ (dimsLUM L U M N wf).sKept from
        (by decide : (1 : Fin 3) ∉ ([0, 2] : List (Fin 3))))]
    unfold GatherDims.start
    rw [dif_pos hm]
    have hsi : (dimsLUM L U M N wf).siIdx (ix3 l n k)
        ⟨List.idxOf (⟨1, h1⟩ : Fin 3) (dimsLUM L U M N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨2, h2⟩ =>
    -- the last axis is an offset axis: no start, the result's own last coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨2, h2⟩ : Fin 3) ∉ (dimsLUM L U M N wf).startIndexMap from
      (by decide : (2 : Fin 3) ∉ ([1] : List (Fin 3))))]
    unfold GatherDims.offCoord
    rw [dif_pos (show (⟨2, h2⟩ : Fin 3) ∈ (dimsLUM L U M N wf).sKept from
      (by decide : (2 : Fin 3) ∈ ([0, 2] : List (Fin 3))))]
    rw [Nat.add_zero, Nat.zero_add]
    rfl

end LUM

end Cert.Hand
-- ==== Proof.RefValue.lean ====
import proofs.«421975_j65335042507147_2_alg».proof.Proof.Gen.ReferenceIdeal.Read
import proofs.«421975_j65335042507147_2_alg».proof.Proof.TableCopy
import proofs.«421975_j65335042507147_2_alg».proof.Proof.LibGatherAt
import proofs.«421975_j65335042507147_2_alg».proof.Proof.LibGatherRows

/-! # The reference computes the masked copy

The jnp reference gathers the named source rows (`src[:, idx, :]`), gathers the named rows' lengths
(`nb[:, idx]`), compares the column numbers `0 … 8191` with the lengths and selects. Each gather first adds 4096 to a
negative index word and then clamps the word into the 4096 rows. For an index word that is not negative the addition
is not taken, so both gathers read the clamped word itself: entry `(g, b, k)` of the result is
`src[g, row b, k]` where `k` is below `nb[g, row b]` and `dst[g, b, k]` elsewhere, which is `TableCopy.copied`. -/

noncomputable section

namespace Cert.ReferenceIdeal.RefValue

open Cert.ReferenceIdeal Cert.ReferenceIdeal.Gen Cert.ReferenceIdeal.Read
open Idealize.ShloMosaic Idealize.ShloMosaic.ValueIdx Cert.Hand Cert.TableCopy

variable {F : FTy → Type} [FloatOps F]

/-- A word that is not negative is not signed-below zero. -/
theorem not_below_zero (w : BitVec 32) (h0 : 0 ≤ w.toInt) : IntOp.cmpi .slt w 0#32 = 0#1 := by
  show BitVec.ofBool (BitVec.slt w 0#32) = 0#1
  rw [slt_zero_of_nonneg w h0]; rfl

/-- The index word after the first gather's normalisation of negative words: a word that is not negative is kept. -/
theorem norm_src (x0 : (⟨S1024, .i32⟩ : BufTy).Contents (Elt F)) (b : Fin 1024) (h0 : 0 ≤ (x0 (ix1 b)).toInt) :
    val_main_v4 (F := F) x0 (ix1 b) = x0 (ix1 b) := by
  rw [val_main_v4_apply, val_main_v1_apply, val_main_v0_apply, val_main_c_apply, not_below_zero _ h0, select_zero]

/-- The same for the second gather's copy of the normalisation. -/
theorem norm_len (x0 : (⟨S1024, .i32⟩ : BufTy).Contents (Elt F)) (b : Fin 1024) (h0 : 0 ≤ (x0 (ix1 b)).toInt) :
    val_main_v11 (F := F) x0 (ix1 b) = x0 (ix1 b) := by
  rw [val_main_v11_apply, val_main_v8_apply, val_main_v7_apply, val_main_c_1_apply, not_below_zero _ h0, select_zero]

/-- The gathered source rows: entry `(g, b, k)` is the source at `(g, row, k)`, the row the clamped index word. -/
theorem gathered_src (x0 : (⟨S1024, .i32⟩ : BufTy).Contents (Elt F)) (x1 : (⟨S2x4096x8192, .i32⟩ : BufTy).Contents (Elt F))
    (g : Fin 2) (b : Fin 1024) (k : Fin 8192) (h0 : 0 ≤ (x0 (ix1 b)).toInt) :
    val_main_v6 (F := F) x0 x1 (ix3 g b k) = x1 (ix3 g (reqRow x0 b) k) := by
  unfold val_main_v6
  refine (gather_LUM_apply (L := 2) (U := 4096) (M := 8192) (N := 1024) (by decide)
    gather_S2x4096x8192_S1024x1_S2x1024x8192_02_1_n_n_1_1_218192_wf x1 (val_main_v5 (F := F) x0) g b k).trans ?_
  rw [val_main_v5_apply]
  have e : idx_main_v5 (ix2 b (0 : Fin 1)) = ix1 b := funext fun a => by match a with | ⟨0, _⟩ => rfl
  rw [e, norm_src x0 b h0]
  rfl

/-- The gathered row lengths: entry `(g, b)` is the length table at `(g, row)`. -/
theorem gathered_len (x0 : (⟨S1024, .i32⟩ : BufTy).Contents (Elt F)) (x2 : (⟨S2x4096, .i32⟩ : BufTy).Contents (Elt F))
    (g : Fin 2) (b : Fin 1024) (h0 : 0 ≤ (x0 (ix1 b)).toInt) :
    val_main_v13 (F := F) x0 x2 (ix2 g b) = x2 (ix2 g (reqRow x0 b)) := by
  unfold val_main_v13
  refine (gather_LU_apply (L := 2) (U := 4096) (N := 1024) (by decide)
    gather_S2x4096_S1024x1_S2x1024_0_1_n_n_1_1_21_wf x2 (val_main_v12 (F := F) x0) g b).trans ?_
  rw [val_main_v12_apply]
  have e : idx_main_v12 (ix2 b (0 : Fin 1)) = ix1 b := funext fun a => by match a with | ⟨0, _⟩ => rfl
  rw [e, norm_len x0 b h0]
  rfl

/-- THE REFERENCE'S RESULT is the masked copy, when no index word is negative. -/
theorem result_eq (x0 : (⟨S1024, .i32⟩ : BufTy).Contents (Elt F)) (x1 : (⟨S2x4096x8192, .i32⟩ : BufTy).Contents (Elt F))
    (x2 : (⟨S2x4096, .i32⟩ : BufTy).Contents (Elt F)) (x3 : (⟨S2x1024x8192, .i32⟩ : BufTy).Contents (Elt F))
    (h0 : ∀ b : Fin 1024, 0 ≤ (x0 (ix1 b)).toInt) :
    val_main_v20 (F := F) x0 x1 x2 x3 = copied x0 x1 x2 x3 := by
  funext j
  obtain ⟨g, b, k, rfl⟩ : ∃ (g : Fin 2) (b : Fin 1024) (k : Fin 8192), j = ix3 g b k := ⟨j 0, j 1, j 2, eq_ix3 j⟩
  rw [copied_apply, val_main_v20_apply, val_main_v19_apply, val_main_v17_apply, val_main_v16_apply, val_main_v15_apply,
    val_main_v18_apply, val_main_v14_apply, gathered_src x0 x1 g b k (h0 b)]
  have e : idx_main_v14 (idx_main_v18 (ix3 g b k)) = ix2 g b := funext fun a => by
    match a with
    | ⟨0, _⟩ => rfl
    | ⟨1, _⟩ => rfl
  rw [e, gathered_len x0 x2 g b (h0 b)]
  rfl

end Cert.ReferenceIdeal.RefValue

end
-- ==== Proof.lean ====
/- A masked copy of block-table rows: the Pallas kernel against its jnp reference, over the integers.

   For each of two groups `g` and each of 1024 batch slots `b`, the request index `req = idx_mapping[b]` names one of
   4096 rows; `n = num_blocks[g, req]` is that row's length; the result row `(g, b)` is the source row
   `src_block_tables[g, req, :]` on the columns `k < n` and the destination's own row `dst_block_tables[g, b, :]` on
   the others (`Cert.TableCopy.copied`).

   The kernel prefetches the index vector and the length table; at grid point `(g, b)` the pipeline fetches tile
   `(g, idx[b])` of the source re-laid as `[2, 4096, 64, 128]` and tile `(g, b)` of the destination, the body loads the
   length word at `(g, idx[b])`, numbers the tile's positions `128 s + l`, compares and selects, and the tile is
   written back to `(g, b)`; the host re-lays the result as `[2, 1024, 8192]`. A block index is the index word read
   unsigned, so the run is defined exactly when every index word names a row: `0 ≤ idx[b] < 4096`, which is the
   precondition (`IndexRange`; from it the two side conditions of the generated frames, `KernelSides` /
   `KernelIdealSides`). The kernel's result is read off the generated frame run point by point (`KernelIdealCopy`).

   The reference gathers rows and lengths with jnp indexing, which adds 4096 to a negative word and clamps; on words
   that name a row neither changes anything, so its result is the same function of the arguments (`RefValue`).
   All values are 32-bit integer words: the two results are equal word for word. The ideal pass rewrote nothing, so
   `preserves` is trivial. -/
import proofs.«421975_j65335042507147_2_alg».proof.Defs
import proofs.«421975_j65335042507147_2_alg».proof.Proof.Gen.Kernel
import proofs.«421975_j65335042507147_2_alg».proof.Proof.Gen.Kernel.Skeleton
import proofs.«421975_j65335042507147_2_alg».proof.Proof.Gen.Kernel.Launch
import proofs.«421975_j65335042507147_2_alg».proof.Proof.Gen.Kernel.Points
import proofs.«421975_j65335042507147_2_alg».proof.Proof.Gen.Kernel.Frame
import proofs.«421975_j65335042507147_2_alg».proof.Proof.Gen.KernelIdeal
import proofs.«421975_j65335042507147_2_alg».proof.Proof.Gen.KernelIdeal.Skeleton
import proofs.«421975_j65335042507147_2_alg».proof.Proof.Gen.KernelIdeal.Launch
import proofs.«421975_j65335042507147_2_alg».proof.Proof.Gen.KernelIdeal.Points
import proofs.«421975_j65335042507147_2_alg».proof.Proof.Gen.KernelIdeal.Frame
import proofs.«421975_j65335042507147_2_alg».proof.Proof.Gen.ReferenceIdeal
import proofs.«421975_j65335042507147_2_alg».proof.Proof.Gen.Pre_any_inputs
import proofs.«421975_j65335042507147_2_alg».proof.Proof.Gen.ReferenceIdeal.Run
import proofs.«421975_j65335042507147_2_alg».proof.Proof.Gen.ReferenceIdeal.Read
import proofs.«421975_j65335042507147_2_alg».proof.Proof.IndexRange
import proofs.«421975_j65335042507147_2_alg».proof.Proof.KernelSides
import proofs.«421975_j65335042507147_2_alg».proof.Proof.KernelIdealSides
import proofs.«421975_j65335042507147_2_alg».proof.Proof.KernelIdealCopy
import proofs.«421975_j65335042507147_2_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel runs: under the precondition every index word is below 4096 unsigned, which gives the
    generated frame its two side conditions. -/
theorem frame_k : Cert.frame_Kernel := fun m ρ hpre => by
  have hT := Cert.Kernel.Sides.tbl_lt m fun b =>
    have hw := Cert.IndexRange.word_range (F := Bits) _ _ _ _ (hpre 0) b
    Cert.IndexRange.toNat_of_range hw.1 hw.2
  exact Cert.Kernel.Gen.frame m ρ (Cert.Kernel.Sides.ok_of_range m hT) (Cert.Kernel.Sides.hyps_of_range m hT _)

/-- The precondition, as the range hypothesis the kernel's value is read under. -/
theorem inRange_of_pre (m : (ℓ : Loc Cert.KernelIdeal.nD Cert.KernelIdeal.τ Cert.KernelIdeal.sig) → Buf (Elt Ideal) ℓ)
    (hpre : Cert.Pre_KernelIdeal m) : Cert.KernelIdeal.Copy.InRange m :=
  fun c b => Cert.IndexRange.word_range (F := Ideal) _ _ _ _ (hpre c) b

/-- The idealized kernel runs, by the same two side conditions. -/
theorem frame_ki : Cert.frame_KernelIdeal := fun m ρ hpre => by
  have hT := Cert.KernelIdeal.Copy.tbl_range m (inRange_of_pre m hpre)
  exact Cert.KernelIdeal.Gen.frame m ρ (Cert.KernelIdeal.Sides.ok_of_range m hT) (Cert.KernelIdeal.Sides.hyps_of_range m hT _)

/-- The reference is a straight line of host operations: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the masked copy of the same arguments. -/
theorem algebraic : Cert.algebraic_KernelIdeal_ReferenceIdeal := by
  intro m ρ m' ρ' hpre hagree
  have hR := inRange_of_pre m hpre
  have hT := Cert.KernelIdeal.Copy.tbl_range m hR
  have hO := Cert.KernelIdeal.Sides.ok_of_range m hT
  have hH := Cert.KernelIdeal.Sides.hyps_of_range m hT hO
  refine ⟨_, Cert.KernelIdeal.Copy.run m ρ hR hO hH, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, (hagree c).1, (hagree c).2.1, (hagree c).2.2.1, (hagree c).2.2.2]
  exact Cert.ReferenceIdeal.RefValue.result_eq (F := Ideal) _ _ _ _ (fun b => (hR c b).1)

theorem claim : Cert.Claim := ⟨Cert.Kernel.Gen.facts, Cert.KernelIdeal.Gen.facts, Cert.ReferenceIdeal.Gen.facts, Cert.Pre_any_inputs.Gen.facts,
  frame_k, frame_ki, frame_ri, trivial, algebraic⟩

end Cert.Proof

end
